-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000 : Shape := ⟨1, ![1000000]⟩
abbrev S1x256 : Shape := ⟨2, ![1, 256]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel
  bcast_S_S1x256 : S_.BroadcastsInDim S1x256 (![] : Fin 0 → Fin S1x256.rank)
  reducesTo_S1x256_S_d0_1 : S1x256.ReducesTo [0, 1] S_

variable [Facts]

def fn {F : FTy → Type} [FloatOps F] (main_arg0 : FVec F S1000000 .f32) (main_arg1 : FVec F S1x256 .f32) : IVec S_ 1 :=
  let main_v0 : FVec F S1000000 .f32 := Host.absf main_arg0
  let main_cst : FVec F S_ .f32 := constant S_ .f32 0x7F800000#32
  let main_v1 : FVec F S1000000 .f32 := broadcastInDim S1000000 ![] bcast_S_S1000000 main_cst
  let main_v2 : IVec S1000000 1 := cmpf .olt main_v0 main_v1
  let main_c : IVec S_ 1 := constantI S_ 1 1#1
  let main_v3 : IVec S_ 1 := (fun x v => Host.reduce IntOp.andi x v reducesTo_S1000000_S_d0 h_S_) main_v2 main_c
  let main_v4 : FVec F S1x256 .f32 := Host.absf main_arg1
  let main_cst_0 : FVec F S_ .f32 := constant S_ .f32 0x7F800000#32
  let main_v5 : FVec F S1x256 .f32 := broadcastInDim S1x256 ![] bcast_S_S1x256 main_cst_0
  let main_v6 : IVec S1x256 1 := cmpf .olt main_v4 main_v5
  let main_c_1 : IVec S_ 1 := constantI S_ 1 1#1
  let main_v7 : IVec S_ 1 := (fun x v => Host.reduce IntOp.andi x v reducesTo_S1x256_S_d0_1 h_S_) main_v6 main_c_1
  let main_v8 : IVec S_ 1 := andi main_v3 main_v7
  main_v8
-- ==== Kernel.lean ====
abbrev S1000000 : Shape := ⟨1, ![1000000]⟩
abbrev S1x256 : Shape := ⟨2, ![1, 256]⟩
abbrev S1000000x1 : Shape := ⟨2, ![1000000, 1]⟩
abbrev S1000000x256 : Shape := ⟨2, ![1000000, 256]⟩
abbrev S10000x1 : Shape := ⟨2, ![10000, 1]⟩
abbrev S10000x256 : Shape := ⟨2, ![10000, 256]⟩

abbrev nBuf : Space → Nat
  | .hbm => 4
  | .vmem => 5
  | .smem => 0
  | _ => 0

abbrev bufTy : (tb : Table) → Fin (tcTables nBuf tb) → BufTy
  | .hbm, ⟨0, _⟩ => ⟨S1000000, .f32⟩
  | .hbm, ⟨1, _⟩ => ⟨S1x256, .f32⟩
  | .hbm, ⟨2, _⟩ => ⟨S1000000x1, .f32⟩
  | .hbm, ⟨3, _⟩ => ⟨S1000000x256, .f32⟩
  | .local _ .vmem, ⟨0, _⟩ => ⟨S10000x1, .f32⟩
  | .local _ .vmem, ⟨1, _⟩ => ⟨S10000x1, .f32⟩
  | .local _ .vmem, ⟨2, _⟩ => ⟨S1x256, .f32⟩
  | .local _ .vmem, ⟨3, _⟩ => ⟨S10000x256, .f32⟩
  | .local _ .vmem, ⟨4, _⟩ => ⟨S10000x256, .f32⟩
  | _, _ => ⟨S1000000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1000000_S1000000x1 : S1000000.ShapeCasts S1000000x1
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  inb_S1x256_S1x256_0_0 : ∀ a, (![0, 0] : Fin 2 → Nat) a + S1x256.size a ≤ S1x256.size a
  h_S1x256 : 0 < S1x256.numel
  broadcasts_S10000x1_S10000x256 : S10000x1.Broadcasts S10000x256
  broadcasts_S1x256_S10000x256 : S1x256.Broadcasts S10000x256
  inb_S10000x256_S10000x256_0_0 : ∀ a, (![0, 0] : Fin 2 → Nat) a + S10000x256.size a ≤ S10000x256.size a
  h_S10000x256 : 0 < S10000x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x1.size a ≤ S1000000x1.size a
  hwx0_0 : ∀ i : grid0.Coords, EltTy.bits .f32 = 32 ∨ (Rect.block (s := S1000000x1) S10000x1.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x256.size a ≤ S1x256.size a
  hwx0_1 : ∀ i : grid0.Coords, EltTy.bits .f32 = 32 ∨ (Rect.block (s := S1x256) S1x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x256.size a ≤ S1000000x256.size a
  hwx0_2 : ∀ i : grid0.Coords, EltTy.bits .f32 = 32 ∨ (Rect.block (s := S1000000x256) S10000x256.size (cc0_transform_2 i) (hinb0_2 i)).WholeWords (EltTy.packing .f32)

variable [Facts₀]

abbrev win0_0 : Pipeline.Window sig grid0 :=
  Pipeline.Window.ofSpec (Memref.whole main_v0) S10000x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1000000 : Shape := ⟨1, ![1000000]⟩
abbrev S1x256 : Shape := ⟨2, ![1, 256]⟩
abbrev S1000000x1 : Shape := ⟨2, ![1000000, 1]⟩
abbrev S256 : Shape := ⟨1, ![256]⟩
abbrev S1000000x256 : Shape := ⟨2, ![1000000, 256]⟩

abbrev nBuf : Space → Nat
  | .hbm => 8
  | .vmem => 0
  | .smem => 0
  | _ => 0

abbrev bufTy : (tb : Table) → Fin (tcTables nBuf tb) → BufTy
  | .hbm, ⟨0, _⟩ => ⟨S1000000, .f32⟩
  | .hbm, ⟨1, _⟩ => ⟨S1x256, .f32⟩
  | .hbm, ⟨2, _⟩ => ⟨S1000000x1, .f32⟩
  | .hbm, ⟨3, _⟩ => ⟨S256, .f32⟩
  | .hbm, ⟨4, _⟩ => ⟨S1x256, .f32⟩
  | .hbm, ⟨5, _⟩ => ⟨S1000000x256, .f32⟩
  | .hbm, ⟨6, _⟩ => ⟨S1000000x256, .f32⟩
  | .hbm, ⟨7, _⟩ => ⟨S1000000x256, .f32⟩
  | _, _ => ⟨S1000000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]

class Facts₀ : Prop where
  bcast_S1000000_S1000000x1_0 : S1000000.BroadcastsInDim S1000000x1 (![0] : Fin 1 → Fin S1000000x1.rank)
  shapeCasts_S1x256_S256 : S1x256.ShapeCasts S256
  bcast_S256_S1x256_1 : S256.BroadcastsInDim S1x256 (![1] : Fin 1 → Fin S1x256.rank)
  bcast_S1000000x1_S1000000x256_0_1 : S1000000x1.BroadcastsInDim S1000000x256 (![0, 1] : Fin 2 → Fin S1000000x256.rank)
  bcast_S1x256_S1000000x256_0_1 : S1x256.BroadcastsInDim S1000000x256 (![0, 1] : Fin 2 → Fin S1000000x256.rank)

variable [Facts₀]

class Facts : Prop extends Facts₀ where

variable [Facts]
-- ==== Proof.OuterSpec.lean ====
/-
  The specification: the rank-one outer product of a vector of one million distances with the single
  row of a 1-by-256 embedding table, as ONE function of the two arrays, index by index:
      outer d e (r, k) = d r * e (0, k).
  Both programs of this certificate compute exactly this product, entry by entry, with one multiplication and
  no other arithmetic, so the statement holds at every float instance and needs no finiteness of the inputs.
-/
import Idealize.ShloMosaic.PureOps.Ideal
import Idealize.ShloMosaic.Lib.ValueIdx

noncomputable section

namespace Cert.Outer

open Idealize.ShloMosaic

/-- The vector of distances. -/
abbrev Dist : Shape := ⟨1, ![1000000]⟩
/-- The embedding table: one row of 256 entries. -/
abbrev Table : Shape := ⟨2, ![1, 256]⟩
/-- The product: one row per distance, one column per table entry. -/
abbrev Prod : Shape := ⟨2, ![1000000, 256]⟩

/-- The distance an entry of the product depends on: the one of its row. -/
def rowOf (i : Prod.Idx) : Dist.Idx := fun a => match a with
  | ⟨0, _⟩ => ⟨(i 0).val, (i 0).isLt⟩

/-- The table entry an entry of the product depends on: the one of its column, in the table's only row. -/
def colOf (i : Prod.Idx) : Table.Idx := fun a => match a with
  | ⟨0, _⟩ => ⟨0, Nat.one_pos⟩
  | ⟨1, _⟩ => ⟨(i 1).val, (i 1).isLt⟩

variable {F : FTy → Type} [FloatOps F]

/-- The outer product, entry by entry. -/
def outer (d : Dist.Idx → Elt F .f32) (e : Table.Idx → Elt F .f32) : Prod.Idx → Elt F .f32 :=
  fun i => FloatOps.mulf (d (rowOf i)) (e (colOf i))

theorem outer_apply (d : Dist.Idx → Elt F .f32) (e : Table.Idx → Elt F .f32) (i : Prod.Idx) :
    outer d e i = FloatOps.mulf (d (rowOf i)) (e (colOf i)) := rfl

end Cert.Outer

end
-- ==== Proof.RefOuter.lean ====
/-
  The reference computes the outer product. Its six host operations are: the distances widened to a column
  (one million by one), the table's row flattened to 256 entries and widened back to one row, both broadcast to
  one million by 256, and one multiplication. Reading the last stage at an index (r, k) through the broadcasts
  lands on distance r and on table entry (0, k): the only arithmetic on the way is k mod 256 = k for k < 256,
  from the flattening of the row.
-/
import proofs.«159241_j23287312679168_1_alg».proof.Proof.Gen.ReferenceIdeal.Read
import proofs.«159241_j23287312679168_1_alg».proof.Proof.OuterSpec

noncomputable section

namespace Cert.Outer.Ref

open Cert.ReferenceIdeal Cert.ReferenceIdeal.Read Idealize.ShloMosaic Cert.Outer

variable {F : FTy → Type} [FloatOps F]

/-- Through the two broadcasts of the distances, entry (r, k) reads distance r. -/
theorem dist_index (i : S1000000x256.Idx) : idx_main_v0 (idx_main_v3 i) = rowOf i :=
  funext fun a => match a with
    | ⟨0, _⟩ => rfl

/-- Through the two broadcasts and the flattening of the table, entry (r, k) reads table entry (0, k). -/
theorem table_index (i : S1000000x256.Idx) : idx_main_v1 (idx_main_v2 (idx_main_v4 i)) = colOf i :=
  funext fun a => Fin.ext (match a with
    | ⟨0, _⟩ => rfl
    | ⟨1, _⟩ => Nat.mod_eq_of_lt (i 1).isLt)

/-- The reference's last stage is the outer product of its two arguments. -/
theorem stage_eq (x0 : (⟨S1000000, .f32⟩ : BufTy).Contents (Elt F)) (x1 : (⟨S1x256, .f32⟩ : BufTy).Contents (Elt F)) :
    val_main_v5 (F := F) x0 x1 = outer x0 x1 := by
  funext i
  rw [val_main_v5_apply, val_main_v3_apply, val_main_v0_apply, val_main_v4_apply, val_main_v2_apply, val_main_v1_apply,
    dist_index, table_index]
  rfl

end Cert.Outer.Ref

end
-- ==== Proof.KernelOuter.lean ====
/-
  The kernel computes the outer product. Its one region walks 100 grid points; point t fetches rows
  10000 t .. 10000 t + 9999 of the distances (as a column), the whole table row, multiplies the column broadcast
  along the 256 lanes by the row broadcast along the 10000 sublanes, and writes back rows 10000 t .. 10000 t + 9999
  of the product. Entry (p, k) of that block is (distance 10000 t + p) * (table entry (0, k)), which is the outer
  product at row 10000 t + p and column k; the 100 blocks cover every row, so the array ends as the outer product.
  The column of distances the region reads is the host's reshape of the distance vector: entry (r, 0) is distance r.
-/
import proofs.«159241_j23287312679168_1_alg».proof.Proof.Gen.KernelIdeal.Value
import proofs.«159241_j23287312679168_1_alg».proof.Proof.OuterSpec
import Idealize.ShloMosaic.Lib.StableHlo.Run
import Idealize.ShloMosaic.Lib.Pipeline.Value

set_option maxRecDepth 16384

noncomputable section

namespace Cert.Outer.Kern

open Cert.KernelIdeal Cert.KernelIdeal.Gen Cert.KernelIdeal.Value Idealize.ShloMosaic Idealize.ShloMosaic.TcCoe Idealize.SL.Sem
open Idealize.ShloMosaic.Pipeline (Dat)
open Cert.Outer

variable {F : FTy → Type} [FloatOps F]
variable (m : (ℓ : Loc nD τ sig) → Buf (Elt F) ℓ) (ρ : Dev nD → PrngReg)

theorem zero_off : (![0, 0] : Fin 2 → Nat) = fun _ => 0 := funext fun a => by fin_cases a <;> rfl

/-! ## One grid point -/

/-- What the body leaves at entry (p, k) of its output block: the p-th distance of the block's column times the
    k-th entry of the table row. -/
theorem body_apply (x0 : Vec F S10000x1 .f32) (x1 : Vec F S1x256 .f32) (y : S10000x256.Idx) :
    out0_2 x0 x1 y = FloatOps.mulf (x0 (ix2_0 y)) (x1 (ix2_1 y)) := by
  unfold out0_2
  rw [canon2_eq]
  simp only [View.ld_unit_zero (S := S10000x1) zero_off, View.ld_unit_zero (S := S1x256) zero_off]

/-- The block indices over the grid: the column of distances and the product move with the point along the rows,
    the table row stays. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The column the region reads is the distance vector reshaped. -/
theorem entry_dist (c : Dev nD) :
    (V m c main_v0 : S1000000x1.Idx → Elt F .f32)
      = shapeCast S1000000x1 (m ((c : Thread nD τ).loc main_arg0)) shapeCasts_S1000000_S1000000x1 := by
  dsimp only [Gen.V, Gen.hostOps0]; after_results; rfl

/-- The block of distances at point t, read where output entry y reads it, is the distance of y's row in the array. -/
theorem dist_read (c : Dev nD) (t : Fin cfg0.N) (y : S10000x256.Idx) :
    iblk m c 0 t (ix2_0 y)
      = (m ((c : Thread nD τ).loc main_arg0) : S1000000.Idx → Elt F .f32) (rowOf (((cfg0.win 2).blk t).view.emb y)) := by
  obtain ⟨e00, e01, e10, e11, e20, e21⟩ := idx_facts t
  show (V m c main_v0 : S1000000x1.Idx → Elt F .f32) (((cfg0.win 0).blk t).view.emb (ix2_0 y)) = _
  rw [entry_dist]
  refine shapeCast_apply _ _ _ _ ?_
  show (S1000000.rowMajor (rowOf (((cfg0.win 2).blk t).view.emb y))).val
    = (S1000000x1.rowMajor (((cfg0.win 0).blk t).view.emb (ix2_0 y))).val
  rw [Shape.rowMajor_val_one, Shape.rowMajor_val_two]
  show win0_2.index t (0 : Fin 2) * 10000 + 1 * (y 0).val
    = (win0_0.index t (0 : Fin 2) * 10000 + 1 * (y 0).val) * 1 + (win0_0.index t (1 : Fin 2) * 1 + 1 * 0)
  omega

/-- The table's block at every point is the table: read where output entry y reads it, it is the table entry of y's column. -/
theorem table_read (c : Dev nD) (t : Fin cfg0.N) (y : S10000x256.Idx) :
    iblk m c 1 t (ix2_1 y)
      = (m ((c : Thread nD τ).loc main_arg1) : S1x256.Idx → Elt F .f32) (colOf (((cfg0.win 2).blk t).view.emb y)) := by
  obtain ⟨e00, e01, e10, e11, e20, e21⟩ := idx_facts t
  show (V m c main_arg1 : S1x256.Idx → Elt F .f32) (((cfg0.win 1).blk t).view.emb (ix2_1 y)) = _
  rw [V_main_arg1]
  congr 1
  funext a
  apply Fin.ext
  match a with
  | ⟨0, _⟩ => show win0_1.index t (0 : Fin 2) * 1 + 1 * 0 = 0; omega
  | ⟨1, _⟩ => show win0_1.index t (1 : Fin 2) * 256 + 1 * (y 1).val = win0_2.index t (1 : Fin 2) * 256 + 1 * (y 1).val; omega

/-- What point t writes back is block t of the outer product of the two argument arrays. -/
theorem flushed_eq (c : Dev nD) (t : Fin cfg0.N) :
    (dats m 0 c).flushed 2 t
      = ((cfg0.win 2).blk t).view.read (Elt F) (outer (m ((c : Thread nD τ).loc main_arg0)) (m ((c : Thread nD τ).loc main_arg1))) := by
  rw [flushed2]
  funext y
  show out0_2 (iblk m c 0 t) (iblk m c 1 t) y = outer _ _ (((cfg0.win 2).blk t).view.emb y)
  rw [body_apply, dist_read, table_read, outer_apply]

/-! ## The whole array -/

/-- An index of the product is in point t's block iff its row is among the block's 10000 rows. -/
theorem mem_blk (t : Fin cfg0.N) (i : S1000000x256.Idx) :
    i ∈ ((cfg0.win 2).blk t).view.set ↔ ∀ a : Fin 2, win0_2.index t a * S10000x256.size a ≤ (i a).val ∧ (i a).val < win0_2.index t a * S10000x256.size a + S10000x256.size a := by
  show i ∈ ((View.whole main_v1).slice (win0_2.rect t)).set ↔ _
  rw [View.set_slice_whole, Rect.mem_set_unit]
  exact Iff.rfl

/-- Every entry of the product is written: row r by the point r / 10000. -/
theorem cover (i : S1000000x256.Idx) :
    ∃ t : Fin cfg0.N, (cfg0.win 2).flush t = true ∧ i ∈ ((cfg0.win 2).blk t).view.set := by
  have hi0 : (i 0).val < 1000000 := (i 0).isLt
  have hi1 : (i 1).val < 256 := (i 1).isLt
  have hN : cfg0.N = 100 := N_0
  obtain ⟨t, ht⟩ : ∃ t : Fin cfg0.N, t.val = (i 0).val / 10000 := ⟨⟨(i 0).val / 10000, by rw [hN]; omega⟩, rfl⟩
  obtain ⟨e00, e01, e10, e11, e20, e21⟩ := idx_facts t
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 256 ≤ (i 1).val ∧ (i 1).val < win0_2.index t (1 : Fin 2) * 256 + 256; omega

/-- After the run the result array is the outer product of the argument arrays. -/
theorem final (c : Dev nD) :
    (dats m 0 c).arrAt 2 cfg0.N = outer (m ((c : Thread nD τ).loc main_arg0)) (m ((c : Thread nD τ).loc main_arg1)) :=
  (dats m 0 c).arrAt_eq_of_cover 2 (outer (m ((c : Thread nD τ).loc main_arg0)) (m ((c : Thread nD τ).loc main_arg1)))
    (fun t _ => flushed_eq m c t) cover

/-- The kernel's run: it terminates with the result array at the outer product and the arguments unchanged. -/
theorem run : θ_run defs (onTc (τ := τ) (main (F := F))) ⟨m, fun _ => 0, ρ⟩ fun r => ∀ c : Dev nD,
      r.2.mem ((c : Thread nD τ).loc main_v1) = outer (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (run_blocks m ρ)

end Cert.Outer.Kern

end
-- ==== Proof.lean ====
/-
  The certificate of a rank-one outer product: from a vector of one million distances d and a table with a single
  row e of 256 entries, both programs produce the one million by 256 array whose entry (r, k) is d r * e (0, k).

  The kernel reshapes d to a column on the host and walks 100 grid points, each multiplying 10000 rows of the
  column (broadcast along the lanes) by the table row (broadcast along the sublanes) and writing back the
  corresponding 10000 rows of the product; the blocks tile the array (KernelOuter). The reference broadcasts both
  operands to the full shape on the host and multiplies once (RefOuter). Index by index both are the single
  product d r * e (0, k) (OuterSpec), in the same order of the factors, so the two results are equal as extended
  reals with no algebraic law beyond reading each broadcast at an index, and the finiteness of the inputs is
  never used. The idealization rewrote no operation, so there is nothing to preserve.
-/
import proofs.«159241_j23287312679168_1_alg».proof.Defs
import proofs.«159241_j23287312679168_1_alg».proof.Proof.Gen.Kernel
import proofs.«159241_j23287312679168_1_alg».proof.Proof.Gen.Kernel.Skeleton
import proofs.«159241_j23287312679168_1_alg».proof.Proof.Gen.Kernel.Launch
import proofs.«159241_j23287312679168_1_alg».proof.Proof.Gen.Kernel.Points
import proofs.«159241_j23287312679168_1_alg».proof.Proof.Gen.Kernel.Frame
import proofs.«159241_j23287312679168_1_alg».proof.Proof.Gen.KernelIdeal
import proofs.«159241_j23287312679168_1_alg».proof.Proof.Gen.KernelIdeal.Skeleton
import proofs.«159241_j23287312679168_1_alg».proof.Proof.Gen.KernelIdeal.Launch
import proofs.«159241_j23287312679168_1_alg».proof.Proof.Gen.KernelIdeal.Points
import proofs.«159241_j23287312679168_1_alg».proof.Proof.Gen.KernelIdeal.Frame
import proofs.«159241_j23287312679168_1_alg».proof.Proof.Gen.ReferenceIdeal
import proofs.«159241_j23287312679168_1_alg».proof.Proof.Gen.Pre_finite_inputs
import proofs.«159241_j23287312679168_1_alg».proof.Proof.Gen.KernelIdeal.Value
import proofs.«159241_j23287312679168_1_alg».proof.Proof.Gen.ReferenceIdeal.Run
import proofs.«159241_j23287312679168_1_alg».proof.Proof.Gen.ReferenceIdeal.Read
import proofs.«159241_j23287312679168_1_alg».proof.Proof.OuterSpec
import proofs.«159241_j23287312679168_1_alg».proof.Proof.RefOuter
import proofs.«159241_j23287312679168_1_alg».proof.Proof.KernelOuter
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- No operation was rewritten for the ideal reading. -/
theorem preserves : Cert.preserves_Kernel_KernelIdeal := trivial

/-- Both programs end with the outer product of the shared arguments. -/
theorem algebraic : Cert.algebraic_KernelIdeal_ReferenceIdeal := by
  intro m ρ m' ρ' _ hagree
  refine ⟨_, Cert.Outer.Kern.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq, Cert.Outer.Ref.stage_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
